-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x4 .f32) (main_arg1 : IVec S2x1600000 32) (main_arg2 : FVec F S4x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x64 .f32 := Host.absf main_arg2
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x4 : Shape := ⟨2, ![100000, 4]⟩
abbrev S2x1600000 : Shape := ⟨2, ![2, 1600000]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x4 : Shape := ⟨2, ![10000, 4]⟩
abbrev S10000x64 : Shape := ⟨2, ![10000, 64]⟩
abbrev S1700000x64 : Shape := ⟨2, ![1700000, 64]⟩
abbrev S1x64 : Shape := ⟨2, ![1, 64]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 83
  | .vmem => 30
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S4x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x64, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x64, .f32⟩
  | .hbm, ⟨51, _⟩ => ⟨S1700000x1, .f32⟩
  | .hbm, ⟨52, _⟩ => ⟨S1700000x64, .f32⟩
  | .hbm, ⟨53, _⟩ => ⟨S1700000x64, .f32⟩
  | .hbm, ⟨54, _⟩ => ⟨S_, .f32⟩
  | .hbm, ⟨55, _⟩ => ⟨S100000x64, .f32⟩
  | .hbm, ⟨56, _⟩ => ⟨S1700000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x1, .f32⟩
  | .hbm, ⟨71, _⟩ => ⟨S1700000x64, .f32⟩
  | .hbm, ⟨72, _⟩ => ⟨S1700000x64, .f32⟩
  | .hbm, ⟨73, _⟩ => ⟨S_, .f32⟩
  | .hbm, ⟨74, _⟩ => ⟨S100000x64, .f32⟩
  | .hbm, ⟨75, _⟩ => ⟨S1700000x1, .i32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x1, .f32⟩
  | .hbm, ⟨80, _⟩ => ⟨S1x1, .f32⟩
  | .hbm, ⟨81, _⟩ => ⟨S100000x1, .f32⟩
  | .hbm, ⟨82, _⟩ => ⟨S100000, .f32⟩
  | .local _ .vmem, ⟨0, _⟩ => ⟨S10000x4, .f32⟩
  | .local _ .vmem, ⟨1, _⟩ => ⟨S10000x4, .f32⟩
  | .local _ .vmem, ⟨2, _⟩ => ⟨S4x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x1, .f32⟩
  | .local _ .vmem, ⟨23, _⟩ => ⟨S10000x1, .f32⟩
  | .local _ .vmem, ⟨24, _⟩ => ⟨S10000x1, .f32⟩
  | .local _ .vmem, ⟨25, _⟩ => ⟨S10000x1, .f32⟩
  | .local _ .vmem, ⟨26, _⟩ => ⟨S10000x1, .f32⟩
  | .local _ .vmem, ⟨27, _⟩ => ⟨S1x1, .f32⟩
  | .local _ .vmem, ⟨28, _⟩ => ⟨S10000x1, .f32⟩
  | .local _ .vmem, ⟨29, _⟩ => ⟨S10000x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x4_S10000x4_0_0 : ∀ a, (![0, 0] : Fin 2 → Nat) a + S10000x4.size a ≤ S10000x4.size a
  h_S10000x4 : 0 < S10000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x4_S4x64_S10000x64_1_0_0_1_n_n_wf : DotDims.WF S10000x4 S4x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S100000x4.size a
  hwx0_0 : ∀ i : grid0.Coords, EltTy.bits .f32 = 32 ∨ (Rect.block (s := S100000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x1.size a ≤ S100000x1.size a
  hwx5_0 : ∀ i : grid5.Coords, EltTy.bits .f32 = 32 ∨ (Rect.block (s := S100000x1) S10000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x4_S4x64_S10000x64_1_0_0_1_n_n : DotDims S10000x4 S4x64 S10000x64 where
  lhsContracting := [1]
  rhsContracting := [0]
  lhsNonContracting := [0]
  rhsNonContracting := [1]
  lhsBatch := []
  rhsBatch := []
  wf := dot_S10000x4_S4x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v59) S10000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S10000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S4x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x64, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x64, .f32⟩
  | .hbm, ⟨51, _⟩ => ⟨S1700000x1, .f32⟩
  | .hbm, ⟨52, _⟩ => ⟨S1700000x64, .f32⟩
  | .hbm, ⟨53, _⟩ => ⟨S1700000x64, .f32⟩
  | .hbm, ⟨54, _⟩ => ⟨S_, .f32⟩
  | .hbm, ⟨55, _⟩ => ⟨S100000x64, .f32⟩
  | .hbm, ⟨56, _⟩ => ⟨S1700000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000, .i32⟩
  | .hbm, ⟨65, _⟩ => ⟨S1700000, .i32⟩
  | .hbm, ⟨66, _⟩ => ⟨S1700000, .i32⟩
  | .hbm, ⟨67, _⟩ => ⟨S_, .f32⟩
  | .hbm, ⟨68, _⟩ => ⟨S1700000, .f32⟩
  | .hbm, ⟨69, _⟩ => ⟨S_, .f32⟩
  | .hbm, ⟨70, _⟩ => ⟨S100000, .f32⟩
  | .hbm, ⟨71, _⟩ => ⟨S1700000x1, .i32⟩
  | .hbm, ⟨72, _⟩ => ⟨S100000, .f32⟩
  | .hbm, ⟨73, _⟩ => ⟨S100000, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S1700000, .f32⟩
  | .hbm, ⟨93, _⟩ => ⟨S100000x64, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x64, .f32⟩
  | .hbm, ⟨103, _⟩ => ⟨S1700000x1, .f32⟩
  | .hbm, ⟨104, _⟩ => ⟨S1700000x64, .f32⟩
  | .hbm, ⟨105, _⟩ => ⟨S1700000x64, .f32⟩
  | .hbm, ⟨106, _⟩ => ⟨S_, .f32⟩
  | .hbm, ⟨107, _⟩ => ⟨S100000x64, .f32⟩
  | .hbm, ⟨108, _⟩ => ⟨S1700000x1, .i32⟩
  | .hbm, ⟨109, _⟩ => ⟨S100000x64, .f32⟩
  | .hbm, ⟨110, _⟩ => ⟨S1x64, .f32⟩
  | .hbm, ⟨111, _⟩ => ⟨S100000x64, .f32⟩
  | .hbm, ⟨112, _⟩ => ⟨S100000x64, .f32⟩
  | .hbm, ⟨113, _⟩ => ⟨S_, .f32⟩
  | .hbm, ⟨114, _⟩ => ⟨S100000x64, .f32⟩
  | .hbm, ⟨115, _⟩ => ⟨S100000x64, .f32⟩
  | .hbm, ⟨116, _⟩ => ⟨S100000x1, .f32⟩
  | .hbm, ⟨117, _⟩ => ⟨S1x1, .f32⟩
  | .hbm, ⟨118, _⟩ => ⟨S100000x1, .f32⟩
  | .hbm, ⟨119, _⟩ => ⟨S100000x1, .f32⟩
  | .hbm, ⟨120, _⟩ => ⟨S100000, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_11 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call1_cst : Ref sig .tc := ⟨.hbm, 113, rfl⟩
abbrev main_call1_v0 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x4_S4x64_S100000x64_1_0_0_1_n_n_wf : DotDims.WF S100000x4 S4x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.RefSide.lean ====
/-
  The reference's side: its run read back and its operations read one at a time (the generated modules), gathered here
  for the modules that compare the kernel's stages with the reference's.
-/
import proofs.«112325_j1477468750494_1_alg».proof.Proof.Gen.ReferenceIdeal.Run
import proofs.«112325_j1477468750494_1_alg».proof.Proof.Gen.ReferenceIdeal.Read
-- ==== Proof.Spec.lean ====
/-
  What the six kernel regions, and the reference's matching operations, compute on the extended reals, index by index.
  A product of a [rows, K] array with a [K, cols] array is, at (r, c), the sum over k of x(r, k) · w(k, c) — a block of
  rows at a time in the kernel, all rows at once in the reference, the same sum either way. A bias row b(0, ·) is added
  to every row and the result cut off below at zero; for the last layer a single bias b(0, 0) is added to a column and
  nothing is cut off.
-/
import Idealize.ShloMosaic.PureOps.Ideal
import Idealize.ShloMosaic.Lib.ValueIdx

noncomputable section

namespace Cert.Spec

open Idealize.ShloMosaic Idealize.ShloMosaic.ValueIdx

/-- The first layer's product: x [100000, 4] with w [4, 64]. -/
def mm4 (x : FVec Ideal ⟨2, ![100000, 4]⟩ .f32) (w : FVec Ideal ⟨2, ![4, 64]⟩ .f32) : FVec Ideal ⟨2, ![100000, 64]⟩ .f32 :=
  fun i => ∑ k : Fin 4, x (ix2 (n0 := 100000) (n1 := 4) ⟨(i 0).val, (i 0).isLt⟩ k) * w (ix2 (n0 := 4) (n1 := 64) k ⟨(i 1).val, (i 1).isLt⟩)

/-- The second layer's product: x [100000, 64] with w [64, 64]. -/
def mm64 (x : FVec Ideal ⟨2, ![100000, 64]⟩ .f32) (w : FVec Ideal ⟨2, ![64, 64]⟩ .f32) : FVec Ideal ⟨2, ![100000, 64]⟩ .f32 :=
  fun i => ∑ k : Fin 64, x (ix2 (n0 := 100000) (n1 := 64) ⟨(i 0).val, (i 0).isLt⟩ k) * w (ix2 (n0 := 64) (n1 := 64) k ⟨(i 1).val, (i 1).isLt⟩)

/-- The head's product: x [100000, 64] with w [64, 1]. -/
def mm1 (x : FVec Ideal ⟨2, ![100000, 64]⟩ .f32) (w : FVec Ideal ⟨2, ![64, 1]⟩ .f32) : FVec Ideal ⟨2, ![100000, 1]⟩ .f32 :=
  fun i => ∑ k : Fin 64, x (ix2 (n0 := 100000) (n1 := 64) ⟨(i 0).val, (i 0).isLt⟩ k) * w (ix2 (n0 := 64) (n1 := 1) k ⟨(i 1).val, (i 1).isLt⟩)

/-- A layer's bias and cut-off: max (x(r, c) + b(0, c), 0). -/
def biasRelu (x : FVec Ideal ⟨2, ![100000, 64]⟩ .f32) (b : FVec Ideal ⟨2, ![1, 64]⟩ .f32) : FVec Ideal ⟨2, ![100000, 64]⟩ .f32 :=
  fun i => max (x i + b (ix2 (n0 := 1) (n1 := 64) ⟨0, Nat.one_pos⟩ ⟨(i 1).val, (i 1).isLt⟩)) (FloatOps.ofBits (F := Ideal) .f32 0x00000000#32)

/-- The head's bias: x(r, 0) + b(0, 0). -/
def biasAdd (x : FVec Ideal ⟨2, ![100000, 1]⟩ .f32) (b : FVec Ideal ⟨2, ![1, 1]⟩ .f32) : FVec Ideal ⟨2, ![100000, 1]⟩ .f32 :=
  fun i => x i + b (ix2 (n0 := 1) (n1 := 1) ⟨0, Nat.one_pos⟩ ⟨0, Nat.one_pos⟩)

end Cert.Spec

end
-- ==== Proof.RefEq.lean ====
/-
  The reference's dense operations as the functions of Spec, index by index. Its three products are the sums over the
  contracted axis that Spec names (the generated reading of each `dot_general`, its two index maps spelt as coordinates). Its
  bias is broadcast twice, [64] to [1, 64] to [100000, 64], which at (r, q) reads the bias at q — the same entry the kernel's
  reshaped bias row [1, 64] has at (0, q); its relu is the maximum with a zero splat. The head's bias [1] is read at 0.
-/
import proofs.«112325_j1477468750494_1_alg».proof.Proof.RefSide
import proofs.«112325_j1477468750494_1_alg».proof.Proof.Spec
import Idealize.ShloMosaic.Lib.ValueLayout

noncomputable section

open Idealize.ShloMosaic Idealize.ShloMosaic.TcCoe Idealize.SL.Sem

namespace Cert.ReferenceIdeal.Bridge

open Cert.ReferenceIdeal Cert.ReferenceIdeal.Read Idealize.ShloMosaic.ValueIdx

/-! ## The three products -/

/-- x · W1. -/
theorem dot_v27 (x0 : (⟨S100000x4, .f32⟩ : BufTy).Contents (Elt Ideal)) (x2 : (⟨S4x64, .f32⟩ : BufTy).Contents (Elt Ideal)) :
    val_main_v27 (F := Ideal) x0 x2 = Cert.Spec.mm4 x0 x2 := by
  funext i
  rw [val_main_v27_apply]
  unfold Cert.Spec.mm4
  refine Finset.sum_congr rfl fun k _ => ?_
  have el : lidx_main_v27 i k = ix2 (n0 := 100000) (n1 := 4) ⟨(i 0).val, (i 0).isLt⟩ k :=
    funext fun a => Fin.ext (by match a with | ⟨0, _⟩ => rfl | ⟨1, _⟩ => rfl)
  have er : ridx_main_v27 i k = ix2 (n0 := 4) (n1 := 64) k ⟨(i 1).val, (i 1).isLt⟩ :=
    funext fun a => Fin.ext (by match a with | ⟨0, _⟩ => rfl | ⟨1, _⟩ => rfl)
  rw [el, er]

/-- The first layer's output times W2. -/
theorem dot_v68 (x0 : (⟨S100000x4, .f32⟩ : BufTy).Contents (Elt Ideal)) (x1 : (⟨S2x1600000, .i32⟩ : BufTy).Contents (Elt Ideal)) (x2 : (⟨S4x64, .f32⟩ : BufTy).Contents (Elt Ideal)) (x3 : (⟨S64, .f32⟩ : BufTy).Contents (Elt Ideal)) (x4 : (⟨S64x64, .f32⟩ : BufTy).Contents (Elt Ideal)) :
    val_main_v68 (F := Ideal) x0 x1 x2 x3 x4 = Cert.Spec.mm64 (val_main_v44 (F := Ideal) x0 x1 x2 x3) x4 := by
  funext i
  rw [val_main_v68_apply]
  unfold Cert.Spec.mm64
  refine Finset.sum_congr rfl fun k _ => ?_
  have el : lidx_main_v68 i k = ix2 (n0 := 100000) (n1 := 64) ⟨(i 0).val, (i 0).isLt⟩ k :=
    funext fun a => Fin.ext (by match a with | ⟨0, _⟩ => rfl | ⟨1, _⟩ => rfl)
  have er : ridx_main_v68 i k = ix2 (n0 := 64) (n1 := 64) k ⟨(i 1).val, (i 1).isLt⟩ :=
    funext fun a => Fin.ext (by match a with | ⟨0, _⟩ => rfl | ⟨1, _⟩ => rfl)
  rw [el, er]

/-- The second layer's output times Wl. -/
theorem dot_v86 (x0 : (⟨S100000x4, .f32⟩ : BufTy).Contents (Elt Ideal)) (x1 : (⟨S2x1600000, .i32⟩ : BufTy).Contents (Elt Ideal)) (x2 : (⟨S4x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) :
    val_main_v86 (F := Ideal) x0 x1 x2 x3 x4 x5 x6 = Cert.Spec.mm1 (val_main_v85 (F := Ideal) x0 x1 x2 x3 x4 x5) x6 := by
  funext i
  rw [val_main_v86_apply]
  unfold Cert.Spec.mm1
  refine Finset.sum_congr rfl fun k _ => ?_
  have el : lidx_main_v86 i k = ix2 (n0 := 100000) (n1 := 64) ⟨(i 0).val, (i 0).isLt⟩ k :=
    funext fun a => Fin.ext (by match a with | ⟨0, _⟩ => rfl | ⟨1, _⟩ => rfl)
  have er : ridx_main_v86 i k = ix2 (n0 := 64) (n1 := 1) k ⟨(i 1).val, (i 1).isLt⟩ :=
    funext fun a => Fin.ext (by match a with | ⟨0, _⟩ => rfl | ⟨1, _⟩ => rfl)
  rw [el, er]

/-! ## The biases and the cut-offs -/

/-- The first layer's bias and relu, against the bias reshaped to a row. -/
theorem relu_v44 (x0 : (⟨S100000x4, .f32⟩ : BufTy).Contents (Elt Ideal)) (x1 : (⟨S2x1600000, .i32⟩ : BufTy).Contents (Elt Ideal)) (x2 : (⟨S4x64, .f32⟩ : BufTy).Contents (Elt Ideal)) (x3 : (⟨S64, .f32⟩ : BufTy).Contents (Elt Ideal)) (h : S64.ShapeCasts S1x64) :
    val_main_v44 (F := Ideal) x0 x1 x2 x3 = Cert.Spec.biasRelu (val_main_v40 (F := Ideal) x0 x1 x2) (shapeCast S1x64 x3 h) := by
  funext i
  rw [val_main_v44_apply, val_main_v43_apply, val_main_v42_apply, val_main_v41_apply, val_main_call0_v0_apply, val_main_call0_cst_apply]
  unfold Cert.Spec.biasRelu
  have e : idx_main_v41 (idx_main_v42 i) = ix1 (n := 64) ⟨(i 1).val, (i 1).isLt⟩ :=
    funext fun a => Fin.ext (by match a with | ⟨0, _⟩ => rfl)
  rw [shapeCast_a_1a_apply x3 h ⟨0, Nat.one_pos⟩ ⟨(i 1).val, (i 1).isLt⟩, e]
  rfl

/-- The second layer's bias and relu, against the bias reshaped to a row. -/
theorem relu_v85 (x0 : (⟨S100000x4, .f32⟩ : BufTy).Contents (Elt Ideal)) (x1 : (⟨S2x1600000, .i32⟩ : BufTy).Contents (Elt Ideal)) (x2 : (⟨S4x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (h : S64.ShapeCasts S1x64) :
    val_main_v85 (F := Ideal) x0 x1 x2 x3 x4 x5 = Cert.Spec.biasRelu (val_main_v81 (F := Ideal) x0 x1 x2 x3 x4) (shapeCast S1x64 x5 h) := by
  funext i
  rw [val_main_v85_apply, val_main_v84_apply, val_main_v83_apply, val_main_v82_apply, val_main_call1_v0_apply, val_main_call1_cst_apply]
  unfold Cert.Spec.biasRelu
  have e : idx_main_v82 (idx_main_v83 i) = ix1 (n := 64) ⟨(i 1).val, (i 1).isLt⟩ :=
    funext fun a => Fin.ext (by match a with | ⟨0, _⟩ => rfl)
  rw [shapeCast_a_1a_apply x5 h ⟨0, Nat.one_pos⟩ ⟨(i 1).val, (i 1).isLt⟩, e]
  rfl

/-- The head's bias, against the bias reshaped to [1, 1]. -/
theorem bias_v89 (x0 : (⟨S100000x4, .f32⟩ : BufTy).Contents (Elt Ideal)) (x1 : (⟨S2x1600000, .i32⟩ : BufTy).Contents (Elt Ideal)) (x2 : (⟨S4x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (h : S1.ShapeCasts S1x1) :
    val_main_v89 (F := Ideal) x0 x1 x2 x3 x4 x5 x6 x7 = Cert.Spec.biasAdd (val_main_v86 (F := Ideal) x0 x1 x2 x3 x4 x5 x6) (shapeCast S1x1 x7 h) := by
  funext i
  rw [val_main_v89_apply, val_main_v88_apply, val_main_v87_apply]
  unfold Cert.Spec.biasAdd
  have e : idx_main_v87 (idx_main_v88 i) = ix1 (n := 1) ⟨0, Nat.one_pos⟩ :=
    funext fun a => Fin.ext (by match a with | ⟨0, _⟩ => rfl)
  rw [shapeCast_a_1a_apply x7 h ⟨0, Nat.one_pos⟩ ⟨0, Nat.one_pos⟩, e]
  rfl

/-! ## The second layer's graph quantities are the first layer's -/

/-- The source list with the self loops, computed again. -/
theorem src_again (x1 : (⟨S2x1600000, .i32⟩ : BufTy).Contents (Elt Ideal)) : val_main_v46 (F := Ideal) x1 = val_main_v5 (F := Ideal) x1 := rfl
/-- The destination list with the self loops, computed again. -/
theorem dst_again (x1 : (⟨S2x1600000, .i32⟩ : BufTy).Contents (Elt Ideal)) : val_main_v47 (F := Ideal) x1 = val_main_v6 (F := Ideal) x1 := rfl

end Cert.ReferenceIdeal.Bridge

end
-- ==== Proof.Reg0.lean ====
/-
  Region 0, the first layer's product x · W1, ten blocks of 10000 rows. At a point t the body multiplies rows
  10000·t … 10000·t + 9999 of x (its block of window 0) by the whole of W1 (window 1) into a zero accumulator, so the entry
  (p, q) it stores is the sum over k of x(10000·t + p, k) · W1(k, q): the narrowing of both operands to bf16 is the identity on
  the extended reals. The block lands on the same rows of the result, the ten blocks tile the result, and so the result
  array ends holding, at every (r, q), the sum over k of x(r, k) · W1(k, q), whatever the region finds in its arrays.
-/
import proofs.«112325_j1477468750494_1_alg».proof.Proof.Gen.KernelIdeal.Frame
import proofs.«112325_j1477468750494_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Reg0

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-! ## The body's product at an entry -/

/-- The left operand's row is the entry's row. -/
theorem lhs_0 (i : S10000x64.Idx) (q : dot_S10000x4_S4x64_S10000x64_1_0_0_1_n_n.contr.Idx) :
    (dot_S10000x4_S4x64_S10000x64_1_0_0_1_n_n.lhsIdx i q 0).val = (i 0).val := by
  unfold DotDims.lhsIdx
  rw [dif_neg (show ¬(0 : Fin S10000x4.rank) ∈ dot_S10000x4_S4x64_S10000x64_1_0_0_1_n_n.lhsBatch by decide), dif_pos (show (0 : Fin S10000x4.rank) ∈ dot_S10000x4_S4x64_S10000x64_1_0_0_1_n_n.lhsNonContracting by decide)]
  rfl
/-- The left operand's column is the contracted index. -/
theorem lhs_1 (i : S10000x64.Idx) (q : dot_S10000x4_S4x64_S10000x64_1_0_0_1_n_n.contr.Idx) :
    (dot_S10000x4_S4x64_S10000x64_1_0_0_1_n_n.lhsIdx i q 1).val = (q ⟨0, by decide⟩).val :=
  dot_S10000x4_S4x64_S10000x64_1_0_0_1_n_n.lhsIdx_val_of_single rfl i q
/-- The right operand's row is the contracted index. -/
theorem rhs_0 (i : S10000x64.Idx) (q : dot_S10000x4_S4x64_S10000x64_1_0_0_1_n_n.contr.Idx) :
    (dot_S10000x4_S4x64_S10000x64_1_0_0_1_n_n.rhsIdx i q 0).val = (q ⟨0, by decide⟩).val :=
  dot_S10000x4_S4x64_S10000x64_1_0_0_1_n_n.rhsIdx_val_of_single rfl i q
/-- The right operand's column is the entry's column. -/
theorem rhs_1 (i : S10000x64.Idx) (q : dot_S10000x4_S4x64_S10000x64_1_0_0_1_n_n.contr.Idx) :
    (dot_S10000x4_S4x64_S10000x64_1_0_0_1_n_n.rhsIdx i q 1).val = (i 1).val := by
  unfold DotDims.rhsIdx
  rw [dif_neg (show ¬(1 : Fin S4x64.rank) ∈ dot_S10000x4_S4x64_S10000x64_1_0_0_1_n_n.rhsBatch by decide), dif_pos (show (1 : Fin S4x64.rank) ∈ dot_S10000x4_S4x64_S10000x64_1_0_0_1_n_n.rhsNonContracting by decide)]
  rfl

/-- What the body stores at (p, q): the sum over k of the x block's (p, k) times the weights' (k, q). -/
theorem pay_apply (x0 : Vec Ideal S10000x4 .f32) (x1 : Vec Ideal S4x64 .f32) (i : S10000x64.Idx) :
    k0_pay1 (F := Ideal) x0 x1 i
      = ∑ k : Fin 4, x0 (ix2 (n0 := 10000) (n1 := 4) ⟨(i 0).val, (i 0).isLt⟩ k) * x1 (ix2 (n0 := 4) (n1 := 64) k ⟨(i 1).val, (i 1).isLt⟩) := by
  unfold k0_pay1
  refine (Ideal.matmul_constant_zero_apply dot_S10000x4_S4x64_S10000x64_1_0_0_1_n_n none _ _ i).trans ?_
  rw [← Equiv.sum_comp (ValueIdx.contrEquiv1 dot_S10000x4_S4x64_S10000x64_1_0_0_1_n_n 4 rfl rfl).symm]
  refine Finset.sum_congr rfl fun k _ => ?_
  have hk := ValueIdx.contrEquiv1_symm_val dot_S10000x4_S4x64_S10000x64_1_0_0_1_n_n 4 rfl rfl k
  have el : dot_S10000x4_S4x64_S10000x64_1_0_0_1_n_n.lhsIdx i ((ValueIdx.contrEquiv1 dot_S10000x4_S4x64_S10000x64_1_0_0_1_n_n 4 rfl rfl).symm k) = ix2 (n0 := 10000) (n1 := 4) ⟨(i 0).val, (i 0).isLt⟩ k := funext fun a => Fin.ext (by
    match a with
    | ⟨0, _⟩ => exact lhs_0 _ _
    | ⟨1, _⟩ => exact (lhs_1 _ _).trans hk)
  have er : dot_S10000x4_S4x64_S10000x64_1_0_0_1_n_n.rhsIdx i ((ValueIdx.contrEquiv1 dot_S10000x4_S4x64_S10000x64_1_0_0_1_n_n 4 rfl rfl).symm k) = ix2 (n0 := 4) (n1 := 64) k ⟨(i 1).val, (i 1).isLt⟩ := funext fun a => Fin.ext (by
    match a with
    | ⟨0, _⟩ => exact (rhs_0 _ _).trans hk
    | ⟨1, _⟩ => exact rhs_1 _ _)
  rw [el, er]
  rfl

/-! ## The blocks as parts of the arrays -/

/-- The printed index maps over the grid: the row blocks of x and of the result move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The x block at point t is rows 10000·t … of x. -/
theorem xblk_apply (c : Dev nD) (t : Fin cfg0.N) (y : S10000x4.Idx) (i : S100000x4.Idx)
    (h0 : (i 0).val = t.val * 10000 + (y 0).val) (h1 : (i 1).val = (y 1).val) :
    (iblk0 V c 0 t : Vec Ideal S10000x4 .f32) y = (V c main_arg0 : S100000x4.Idx → Elt Ideal .f32) i := by
  obtain ⟨e0, e1, -⟩ := idx_facts t
  unfold iblk0
  rw [View.read_apply]
  show V c main_arg0 _ = V c main_arg0 i
  congr 1
  funext a
  apply Fin.ext
  match a with
  | ⟨0, _⟩ => show win0_0.index t 0 * 10000 + 1 * (y 0).val = (i 0).val; rw [e0, h0]; omega
  | ⟨1, _⟩ => show win0_0.index t 1 * 4 + 1 * (y 1).val = (i 1).val; rw [e1, h1]; omega

/-- The weights' block is the weights. -/
theorem wblk_apply (c : Dev nD) (t : Fin cfg0.N) (y : S4x64.Idx) (i : S4x64.Idx)
    (h0 : (i 0).val = (y 0).val) (h1 : (i 1).val = (y 1).val) :
    (iblk0 V c 1 t : Vec Ideal S4x64 .f32) y = (V c main_arg2 : S4x64.Idx → Elt Ideal .f32) i := by
  obtain ⟨-, -, e2, e3, -⟩ := idx_facts t
  unfold iblk0
  rw [View.read_apply]
  show V c main_arg2 _ = V c main_arg2 i
  congr 1
  funext a
  apply Fin.ext
  match a with
  | ⟨0, _⟩ => show win0_1.index t 0 * 4 + 1 * (y 0).val = (i 0).val; rw [e2, h0]; omega
  | ⟨1, _⟩ => show win0_1.index t 1 * 64 + 1 * (y 1).val = (i 1).val; rw [e3, h1]; omega

/-! ## What a point writes back, and the array after the region -/

/-- What point t writes back is its block of the whole product. -/
theorem flushed_eq (c : Dev nD) (t : Fin cfg0.N) :
    (dat0 V c).flushed 2 t = ((cfg0.win 2).blk t).view.read (Elt Ideal) (Cert.Spec.mm4 (V c main_arg0) (V c main_arg2)) := by
  show (cfg0.win 2).cut (grid0.coords t) ((dat0 V c).after 2 t) = _
  rw [after0_2]
  unfold out0_2
  rw [View.canon_unit_zero hz]
  simp only [View.ld_unit_zero (S := S10000x4) hz, View.ld_unit_zero (S := S4x64) hz]
  obtain ⟨-, -, -, -, e4, e5⟩ := idx_facts t
  funext j
  show k0_pay1 (iblk0 V c 0 t) (iblk0 V c 1 t) j = Cert.Spec.mm4 (V c main_arg0) (V c main_arg2) (((cfg0.win 2).blk t).view.emb j)
  refine (pay_apply (iblk0 V c 0 t) (iblk0 V c 1 t) j).trans ?_
  unfold Cert.Spec.mm4
  have hj0 : ((((cfg0.win 2).blk t).view.emb j) 0).val = t.val * 10000 + (j 0).val := by
    show win0_2.index t 0 * 10000 + 1 * (j 0).val = _; rw [e4]; omega
  have hj1 : ((((cfg0.win 2).blk t).view.emb j) 1).val = (j 1).val := by
    show win0_2.index t 1 * 64 + 1 * (j 1).val = _; rw [e5]; omega
  refine Finset.sum_congr rfl fun k _ => ?_
  refine congrArg₂ (· * ·) (xblk_apply V c t _ _ ?_ ?_) (wblk_apply V c t _ _ ?_ ?_)
  · exact hj0
  · rfl
  · rfl
  · exact hj1

/-- An index of the result is in point t's block iff its row is among the block's rows. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v27).slice (win0_2.rect t)).set ↔ _
  rw [View.set_slice_whole, Rect.mem_set_unit]
  exact Iff.rfl

/-- Every index of the result is in the block of the point its row falls in. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 := ⟨⟨(i 0).val / 10000, by show _ < 10; omega⟩, rfl⟩
  obtain ⟨-, -, -, -, e4, e5⟩ := idx_facts t
  refine ⟨t, flush0_2 t, ?_⟩
  rw [mem_blk]
  intro a
  match a with
  | ⟨0, _⟩ => show win0_2.index t 0 * 10000 ≤ (i 0).val ∧ (i 0).val < win0_2.index t 0 * 10000 + 10000; rw [e4, ht]; omega
  | ⟨1, _⟩ => show win0_2.index t 1 * 64 ≤ (i 1).val ∧ (i 1).val < win0_2.index t 1 * 64 + 64; rw [e5]; omega

/-- After the region the result array holds the whole product of what the region found in x and W1. -/
theorem arr (c : Dev nD) : (dat0 V c).arrAt 2 cfg0.N = Cert.Spec.mm4 (V c main_arg0) (V c main_arg2) :=
  (dat0 V c).arrAt_eq_of_cover 2 (Cert.Spec.mm4 (V c main_arg0) (V c main_arg2)) (fun t _ => flushed_eq V c t) cover

end Cert.KernelIdeal.Reg0

end
-- ==== Proof.Reg1.lean ====
/-
  Region 1, the first layer's bias and cut-off, ten blocks of 10000 rows. At a point t the body adds the bias row (window 1,
  a [1, 64] array, stretched over the rows) to rows 10000·t … of the aggregated features (window 0) and takes the maximum with
  zero, entry by entry; the block lands on the same rows of the result and the ten blocks tile it. So the result array ends
  holding max (a(r, q) + b(0, q), 0) at every (r, q), whatever the region finds in its arrays.
-/
import proofs.«112325_j1477468750494_1_alg».proof.Proof.Gen.KernelIdeal.Frame
import proofs.«112325_j1477468750494_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Reg1

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-! ## The body's entry -/

/-- What the body stores at (p, q): the features' (p, q) plus the bias row's (0, q), cut off below at zero. -/
theorem pay_apply (x0 : Vec Ideal S10000x64 .f32) (x1 : Vec Ideal S1x64 .f32) (i : S10000x64.Idx) :
    k1_pay1 (F := Ideal) x0 x1 i
      = max (x0 i + x1 (ix2 (n0 := 1) (n1 := 64) ⟨0, Nat.one_pos⟩ ⟨(i 1).val, (i 1).isLt⟩)) (FloatOps.ofBits (F := Ideal) .f32 0x00000000#32) := by
  unfold k1_pay1
  simp only [shapeCast_self]
  show max (x0 i + broadcastTo S10000x64 x1 broadcasts_S1x64_S10000x64 i) _ = _
  rw [broadcastTo_apply x1 broadcasts_S1x64_S10000x64 i (ix2 (n0 := 1) (n1 := 64) ⟨0, Nat.one_pos⟩ ⟨(i 1).val, (i 1).isLt⟩) (fun a => by
    match a with
    | ⟨0, _⟩ => show 0 = if (1 : Nat) = 1 then 0 else _; rw [if_pos rfl]
    | ⟨1, _⟩ => show (i 1).val = if (64 : Nat) = 1 then 0 else (i 1).val; rw [if_neg (by decide)])]
  rfl

/-! ## The blocks as parts of the arrays -/

/-- The printed index maps over the grid: the row blocks of the features and of the result move with the point, the bias stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The features' block at point t is rows 10000·t … of the features. -/
theorem xblk_apply (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .f32) y = (V c main_v40 : S100000x64.Idx → Elt Ideal .f32) i := by
  obtain ⟨e0, e1, -⟩ := idx_facts t
  unfold iblk1
  rw [View.read_apply]
  show V c main_v40 _ = V c main_v40 i
  congr 1
  funext a
  apply Fin.ext
  match a with
  | ⟨0, _⟩ => show win1_0.index t 0 * 10000 + 1 * (y 0).val = (i 0).val; rw [e0, h0]; omega
  | ⟨1, _⟩ => show win1_0.index t 1 * 64 + 1 * (y 1).val = (i 1).val; rw [e1, h1]; omega

/-- The bias row's block is the bias row. -/
theorem bblk_apply (c : Dev nD) (t : Fin cfg1.N) (y : S1x64.Idx) (i : S1x64.Idx)
    (h0 : (i 0).val = (y 0).val) (h1 : (i 1).val = (y 1).val) :
    (iblk1 V c 1 t : Vec Ideal S1x64 .f32) y = (V c main_v41 : S1x64.Idx → Elt Ideal .f32) i := by
  obtain ⟨-, -, e2, e3, -⟩ := idx_facts t
  unfold iblk1
  rw [View.read_apply]
  show V c main_v41 _ = V c main_v41 i
  congr 1
  funext a
  apply Fin.ext
  match a with
  | ⟨0, _⟩ => show win1_1.index t 0 * 1 + 1 * (y 0).val = (i 0).val; rw [e2, h0]; omega
  | ⟨1, _⟩ => show win1_1.index t 1 * 64 + 1 * (y 1).val = (i 1).val; rw [e3, h1]; omega

/-! ## What a point writes back, and the array after the region -/

/-- What point t writes back is its block of the whole biased, cut-off array. -/
theorem flushed_eq (c : Dev nD) (t : Fin cfg1.N) :
    (dat1 V c).flushed 2 t = ((cfg1.win 2).blk t).view.read (Elt Ideal) (Cert.Spec.biasRelu (V c main_v40) (V c main_v41)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨-, -, -, -, e4, e5⟩ := idx_facts t
  funext j
  show k1_pay1 (iblk1 V c 0 t) (iblk1 V c 1 t) j = Cert.Spec.biasRelu (V c main_v40) (V c main_v41) (((cfg1.win 2).blk t).view.emb j)
  refine (pay_apply (iblk1 V c 0 t) (iblk1 V c 1 t) j).trans ?_
  unfold Cert.Spec.biasRelu
  have hj0 : ((((cfg1.win 2).blk t).view.emb j) 0).val = t.val * 10000 + (j 0).val := by
    show win1_2.index t 0 * 10000 + 1 * (j 0).val = _; rw [e4]; omega
  have hj1 : ((((cfg1.win 2).blk t).view.emb j) 1).val = (j 1).val := by
    show win1_2.index t 1 * 64 + 1 * (j 1).val = _; rw [e5]; omega
  refine congrArg₂ max (congrArg₂ (· + ·) (xblk_apply V c t _ _ hj0 hj1) (bblk_apply V c t _ _ ?_ ?_)) rfl
  · rfl
  · exact hj1

/-- An index of the result is in point t's block iff its row is among the block's rows. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v42).slice (win1_2.rect t)).set ↔ _
  rw [View.set_slice_whole, Rect.mem_set_unit]
  exact Iff.rfl

/-- Every index of the result is in the block of the point its row falls in. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 10000 := ⟨⟨(i 0).val / 10000, by show _ < 10; omega⟩, rfl⟩
  obtain ⟨-, -, -, -, e4, e5⟩ := idx_facts t
  refine ⟨t, flush1_2 t, ?_⟩
  rw [mem_blk]
  intro a
  match a with
  | ⟨0, _⟩ => show win1_2.index t 0 * 10000 ≤ (i 0).val ∧ (i 0).val < win1_2.index t 0 * 10000 + 10000; rw [e4, ht]; omega
  | ⟨1, _⟩ => show win1_2.index t 1 * 64 ≤ (i 1).val ∧ (i 1).val < win1_2.index t 1 * 64 + 64; rw [e5]; omega

/-- After the region the result array holds the biased, cut-off features of what the region found in its two arrays. -/
theorem arr (c : Dev nD) : (dat1 V c).arrAt 2 cfg1.N = Cert.Spec.biasRelu (V c main_v40) (V c main_v41) :=
  (dat1 V c).arrAt_eq_of_cover 2 (Cert.Spec.biasRelu (V c main_v40) (V c main_v41)) (fun t _ => flushed_eq V c t) cover

end Cert.KernelIdeal.Reg1

end
-- ==== Proof.Reg2.lean ====
/-
  Region 2, the second layer's product h · W2, ten blocks of 10000 rows. At a point t the body multiplies rows 10000·t … of the first
  layer's output (its block of window 0) by the whole of W2 (window 1) into a zero accumulator: the entry (p, q) it stores is the sum
  over k of h(10000·t + p, k) · W2(k, q), the narrowing of both operands to bf16 being the identity on the extended reals. The block
  lands on the same rows of the result and the ten blocks tile it, so the result array ends holding the whole product of what the
  region finds in its two arrays.
-/
import proofs.«112325_j1477468750494_1_alg».proof.Proof.Gen.KernelIdeal.Frame
import proofs.«112325_j1477468750494_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Reg2

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-! ## The body's product at an entry -/

/-- The left operand's row is the entry's row. -/
theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand's column is the contracted index. -/
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row is the contracted index. -/
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- The right operand's column is the entry's column. -/
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What the body stores at (p, q): the sum over k of the row block's (p, k) times the weights' (k, q). -/
theorem pay_apply (x0 : Vec Ideal S10000x64 .f32) (x1 : Vec Ideal S64x64 .f32) (i : S10000x64.Idx) :
    k2_pay1 (F := Ideal) x0 x1 i
      = ∑ k : Fin 64, x0 (ix2 (n0 := 10000) (n1 := 64) ⟨(i 0).val, (i 0).isLt⟩ k) * x1 (ix2 (n0 := 64) (n1 := 64) k ⟨(i 1).val, (i 1).isLt⟩) := by
  unfold k2_pay1
  simp only [shapeCast_self]
  refine (Ideal.matmul_constant_zero_apply dot_S10000x64_S64x64_S10000x64_1_0_0_1_n_n none _ _ i).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx i ((ValueIdx.contrEquiv1 dot_S10000x64_S64x64_S10000x64_1_0_0_1_n_n 64 rfl rfl).symm k) = ix2 (n0 := 10000) (n1 := 64) ⟨(i 0).val, (i 0).isLt⟩ k := funext fun a => Fin.ext (by
    match a with
    | ⟨0, _⟩ => exact lhs_0 _ _
    | ⟨1, _⟩ => exact (lhs_1 _ _).trans hk)
  have er : dot_S10000x64_S64x64_S10000x64_1_0_0_1_n_n.rhsIdx i ((ValueIdx.contrEquiv1 dot_S10000x64_S64x64_S10000x64_1_0_0_1_n_n 64 rfl rfl).symm k) = ix2 (n0 := 64) (n1 := 64) k ⟨(i 1).val, (i 1).isLt⟩ := funext fun a => Fin.ext (by
    match a with
    | ⟨0, _⟩ => exact (rhs_0 _ _).trans hk
    | ⟨1, _⟩ => exact rhs_1 _ _)
  rw [el, er]
  rfl

/-! ## The blocks as parts of the arrays -/

/-- The printed index maps over the grid: the row blocks of the left operand and of the result move with the point, the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 10000·t … of the left operand. -/
theorem xblk_apply (c : Dev nD) (t : Fin cfg2.N) (y : S10000x64.Idx) (i : S100000x64.Idx)
    (h0 : (i 0).val = t.val * 10000 + (y 0).val) (h1 : (i 1).val = (y 1).val) :
    (iblk2 V c 0 t : Vec Ideal S10000x64 .f32) y = (V c main_v42 : S100000x64.Idx → Elt Ideal .f32) i := by
  obtain ⟨e0, e1, -⟩ := idx_facts t
  unfold iblk2
  rw [View.read_apply]
  show V c main_v42 _ = V c main_v42 i
  congr 1
  funext a
  apply Fin.ext
  match a with
  | ⟨0, _⟩ => show win2_0.index t 0 * 10000 + 1 * (y 0).val = (i 0).val; rw [e0, h0]; omega
  | ⟨1, _⟩ => show win2_0.index t 1 * 64 + 1 * (y 1).val = (i 1).val; rw [e1, h1]; omega

/-- The weights' block is the weights. -/
theorem wblk_apply (c : Dev nD) (t : Fin cfg2.N) (y : S64x64.Idx) (i : S64x64.Idx)
    (h0 : (i 0).val = (y 0).val) (h1 : (i 1).val = (y 1).val) :
    (iblk2 V c 1 t : Vec Ideal S64x64 .f32) y = (V c main_arg4 : S64x64.Idx → Elt Ideal .f32) i := by
  obtain ⟨-, -, e2, e3, -⟩ := idx_facts t
  unfold iblk2
  rw [View.read_apply]
  show V c main_arg4 _ = V c main_arg4 i
  congr 1
  funext a
  apply Fin.ext
  match a with
  | ⟨0, _⟩ => show win2_1.index t 0 * 64 + 1 * (y 0).val = (i 0).val; rw [e2, h0]; omega
  | ⟨1, _⟩ => show win2_1.index t 1 * 64 + 1 * (y 1).val = (i 1).val; rw [e3, h1]; omega

/-! ## What a point writes back, and the array after the region -/

/-- What point t writes back is its block of the whole product. -/
theorem flushed_eq (c : Dev nD) (t : Fin cfg2.N) :
    (dat2 V c).flushed 2 t = ((cfg2.win 2).blk t).view.read (Elt Ideal) (Cert.Spec.mm64 (V c main_v42) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨-, -, -, -, e4, e5⟩ := idx_facts t
  funext j
  show k2_pay1 (iblk2 V c 0 t) (iblk2 V c 1 t) j = Cert.Spec.mm64 (V c main_v42) (V c main_arg4) (((cfg2.win 2).blk t).view.emb j)
  refine (pay_apply (iblk2 V c 0 t) (iblk2 V c 1 t) j).trans ?_
  unfold Cert.Spec.mm64
  have hj0 : ((((cfg2.win 2).blk t).view.emb j) 0).val = t.val * 10000 + (j 0).val := by
    show win2_2.index t 0 * 10000 + 1 * (j 0).val = _; rw [e4]; omega
  have hj1 : ((((cfg2.win 2).blk t).view.emb j) 1).val = (j 1).val := by
    show win2_2.index t 1 * 64 + 1 * (j 1).val = _; rw [e5]; omega
  refine Finset.sum_congr rfl fun k _ => ?_
  refine congrArg₂ (· * ·) (xblk_apply V c t _ _ ?_ ?_) (wblk_apply V c t _ _ ?_ ?_)
  · exact hj0
  · rfl
  · rfl
  · exact hj1

/-- An index of the result is in point t's block iff its row is among the block's rows. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v43).slice (win2_2.rect t)).set ↔ _
  rw [View.set_slice_whole, Rect.mem_set_unit]
  exact Iff.rfl

/-- Every index of the result is in the block of the point its row falls in. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 10000 := ⟨⟨(i 0).val / 10000, by show _ < 10; omega⟩, rfl⟩
  obtain ⟨-, -, -, -, e4, e5⟩ := idx_facts t
  refine ⟨t, flush2_2 t, ?_⟩
  rw [mem_blk]
  intro a
  match a with
  | ⟨0, _⟩ => show win2_2.index t 0 * 10000 ≤ (i 0).val ∧ (i 0).val < win2_2.index t 0 * 10000 + 10000; rw [e4, ht]; omega
  | ⟨1, _⟩ => show win2_2.index t 1 * 64 ≤ (i 1).val ∧ (i 1).val < win2_2.index t 1 * 64 + 64; rw [e5]; omega

/-- After the region the result array holds the whole product of what the region found in its two arrays. -/
theorem arr (c : Dev nD) : (dat2 V c).arrAt 2 cfg2.N = Cert.Spec.mm64 (V c main_v42) (V c main_arg4) :=
  (dat2 V c).arrAt_eq_of_cover 2 (Cert.Spec.mm64 (V c main_v42) (V c main_arg4)) (fun t _ => flushed_eq V c t) cover

end Cert.KernelIdeal.Reg2

end
-- ==== Proof.Chain1.lean ====
/-
  The kernel's run, boundary by boundary, first half: what the buffers hold after each stretch of host operations and each
  region, as the reference's own stages of the arguments. Before the first region the host computes the edge lists with the
  self loops and the normalisation norm = dinv[src] · dinv[dst] exactly as the reference does (the same operations in the same
  order). Region 0 leaves x · W1 (Reg0), which is the reference's first dot_general; the host stretch after it gathers, scales
  and scatter-adds it as the reference does; region 1 adds the bias row and cuts off at zero (Reg1), the reference's add and
  relu; region 2 multiplies by W2 (Reg2), the reference's second dot_general. A buffer no operation or region writes keeps
  what it held, which carries the arguments and the graph quantities along.
-/
import proofs.«112325_j1477468750494_1_alg».proof.Proof.Gen.KernelIdeal.Frame
import proofs.«112325_j1477468750494_1_alg».proof.Proof.RefSide
import proofs.«112325_j1477468750494_1_alg».proof.Proof.RefEq
import proofs.«112325_j1477468750494_1_alg».proof.Proof.Reg0
import proofs.«112325_j1477468750494_1_alg».proof.Proof.Reg1
import proofs.«112325_j1477468750494_1_alg».proof.Proof.Reg2
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.ReferenceIdeal.Read Cert.ReferenceIdeal

variable (m : (ℓ : Loc nD τ sig) → Buf (Elt Ideal) ℓ) (ρ : Dev nD → PrngReg)

/-! ## Before region 0: the graph quantities, and the arguments untouched -/

/-- The source list with the self loops. -/
theorem W1_v5 (c : Dev nD) : W1 m ρ c (Proc.devRef .tc main_v5) = val_main_v5 (F := Ideal) (m ((c : Thread nD τ).loc main_arg1)) := by
  show StableHlo.after hostOps0 (W0 m ρ c) (Proc.devRef .tc main_v5) = _
  after_results_simp <;> rfl
/-- The destination list with the self loops. -/
theorem W1_v6 (c : Dev nD) : W1 m ρ c (Proc.devRef .tc main_v6) = val_main_v6 (F := Ideal) (m ((c : Thread nD τ).loc main_arg1)) := by
  show StableHlo.after hostOps0 (W0 m ρ c) (Proc.devRef .tc main_v6) = _
  after_results_simp <;> rfl
/-- The normalisation, one factor per edge. -/
theorem W1_v26 (c : Dev nD) : W1 m ρ c (Proc.devRef .tc main_v26) = val_main_v26 (F := Ideal) (m ((c : Thread nD τ).loc main_arg1)) := by
  show StableHlo.after hostOps0 (W0 m ρ c) (Proc.devRef .tc main_v26) = _
  after_results_simp <;> rfl
theorem W1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl
theorem W1_arg2 (c : Dev nD) : W1 m ρ c (Proc.devRef .tc main_arg2) = (m ((c : Thread nD τ).loc main_arg2)) := by
  show StableHlo.after hostOps0 (W0 m ρ c) (Proc.devRef .tc main_arg2) = _
  after_results_simp <;> rfl
theorem W1_arg3 (c : Dev nD) : W1 m ρ c (Proc.devRef .tc main_arg3) = (m ((c : Thread nD τ).loc main_arg3)) := by
  show StableHlo.after hostOps0 (W0 m ρ c) (Proc.devRef .tc main_arg3) = _
  after_results_simp <;> rfl
theorem W1_arg4 (c : Dev nD) : W1 m ρ c (Proc.devRef .tc main_arg4) = (m ((c : Thread nD τ).loc main_arg4)) := by
  show StableHlo.after hostOps0 (W0 m ρ c) (Proc.devRef .tc main_arg4) = _
  after_results_simp <;> rfl
theorem W1_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl
theorem W1_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl
theorem W1_arg7 (c : Dev nD) : W1 m ρ c (Proc.devRef .tc main_arg7) = (m ((c : Thread nD τ).loc main_arg7)) := by
  show StableHlo.after hostOps0 (W0 m ρ c) (Proc.devRef .tc main_arg7) = _
  after_results_simp <;> rfl

/-! ## Region 0: the first product; everything else kept -/

theorem W2_v27 (c : Dev nD) : W2 m ρ c (Proc.devRef .tc main_v27) = val_main_v27 (F := Ideal) (m ((c : Thread nD τ).loc main_arg0)) (m ((c : Thread nD τ).loc main_arg2)) :=
  (W2_arr m ρ c 2).trans ((Reg0.arr (V1 m ρ) c).trans
    ((congrArg₂ Cert.Spec.mm4 (W1_arg0 m ρ c) (W1_arg2 m ρ c)).trans (Bridge.dot_v27 _ _).symm))
theorem W2_v5 (c : Dev nD) : W2 m ρ c (Proc.devRef .tc main_v5) = val_main_v5 (F := Ideal) (m ((c : Thread nD τ).loc main_arg1)) :=
  (W2_of_ne m ρ c main_v5 (by decide)).trans (W1_v5 m ρ c)
theorem W2_v6 (c : Dev nD) : W2 m ρ c (Proc.devRef .tc main_v6) = val_main_v6 (F := Ideal) (m ((c : Thread nD τ).loc main_arg1)) :=
  (W2_of_ne m ρ c main_v6 (by decide)).trans (W1_v6 m ρ c)
theorem W2_v26 (c : Dev nD) : W2 m ρ c (Proc.devRef .tc main_v26) = val_main_v26 (F := Ideal) (m ((c : Thread nD τ).loc main_arg1)) :=
  (W2_of_ne m ρ c main_v26 (by decide)).trans (W1_v26 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)

/-! ## The host stretch after region 0: gather, scale, scatter-add; the bias as a row -/

/-- The aggregated features of the first layer. -/
theorem W3_v40 (c : Dev nD) : W3 m ρ c (Proc.devRef .tc main_v40) = val_main_v40 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  after_results_simp
  rw [W2_v27 m ρ c, W2_v5 m ρ c, W2_v6 m ρ c, W2_v26 m ρ c]
  rfl
/-- The first bias, reshaped to a row. -/
theorem W3_v41 (c : Dev nD) : W3 m ρ c (Proc.devRef .tc main_v41) = shapeCast S1x64 (m ((c : Thread nD τ).loc main_arg3)) shapeCasts_S64_S1x64 := by
  show StableHlo.after hostOps1 (W2 m ρ c) (Proc.devRef .tc main_v41) = _
  after_results_simp
  rw [W2_arg3 m ρ c]
  rfl
theorem W3_v5 (c : Dev nD) : W3 m ρ c (Proc.devRef .tc main_v5) = val_main_v5 (F := Ideal) (m ((c : Thread nD τ).loc main_arg1)) := by
  show StableHlo.after hostOps1 (W2 m ρ c) (Proc.devRef .tc main_v5) = _
  after_results_simp
  exact W2_v5 m ρ c
theorem W3_v6 (c : Dev nD) : W3 m ρ c (Proc.devRef .tc main_v6) = val_main_v6 (F := Ideal) (m ((c : Thread nD τ).loc main_arg1)) := by
  show StableHlo.after hostOps1 (W2 m ρ c) (Proc.devRef .tc main_v6) = _
  after_results_simp
  exact W2_v6 m ρ c
theorem W3_v26 (c : Dev nD) : W3 m ρ c (Proc.devRef .tc main_v26) = val_main_v26 (F := Ideal) (m ((c : Thread nD τ).loc main_arg1)) := by
  show StableHlo.after hostOps1 (W2 m ρ c) (Proc.devRef .tc main_v26) = _
  after_results_simp
  exact W2_v26 m ρ c
theorem W3_arg4 (c : Dev nD) : W3 m ρ c (Proc.devRef .tc main_arg4) = (m ((c : Thread nD τ).loc main_arg4)) := by
  show StableHlo.after hostOps1 (W2 m ρ c) (Proc.devRef .tc main_arg4) = _
  after_results_simp
  exact W2_arg4 m ρ c
theorem W3_arg5 (c : Dev nD) : W3 m ρ c (Proc.devRef .tc main_arg5) = (m ((c : Thread nD τ).loc main_arg5)) := by
  show StableHlo.after hostOps1 (W2 m ρ c) (Proc.devRef .tc main_arg5) = _
  after_results_simp
  exact W2_arg5 m ρ c
theorem W3_arg6 (c : Dev nD) : W3 m ρ c (Proc.devRef .tc main_arg6) = (m ((c : Thread nD τ).loc main_arg6)) := by
  show StableHlo.after hostOps1 (W2 m ρ c) (Proc.devRef .tc main_arg6) = _
  after_results_simp
  exact W2_arg6 m ρ c
theorem W3_arg7 (c : Dev nD) : W3 m ρ c (Proc.devRef .tc main_arg7) = (m ((c : Thread nD τ).loc main_arg7)) := by
  show StableHlo.after hostOps1 (W2 m ρ c) (Proc.devRef .tc main_arg7) = _
  after_results_simp
  exact W2_arg7 m ρ c

/-! ## Region 1: the first layer's bias and cut-off; everything else kept -/

theorem W4_v42 (c : Dev nD) : W4 m ρ c (Proc.devRef .tc main_v42) = val_main_v44 (F := Ideal) (m ((c : Thread nD τ).loc main_arg0)) (m ((c : Thread nD τ).loc main_arg1)) (m ((c : Thread nD τ).loc main_arg2)) (m ((c : Thread nD τ).loc main_arg3)) :=
  (W4_arr m ρ c 2).trans ((Reg1.arr (V3 m ρ) c).trans
    ((congrArg₂ Cert.Spec.biasRelu (W3_v40 m ρ c) (W3_v41 m ρ c)).trans (Bridge.relu_v44 _ _ _ _ _).symm))
theorem W4_v5 (c : Dev nD) : W4 m ρ c (Proc.devRef .tc main_v5) = val_main_v5 (F := Ideal) (m ((c : Thread nD τ).loc main_arg1)) :=
  (W4_of_ne m ρ c main_v5 (by decide)).trans (W3_v5 m ρ c)
theorem W4_v6 (c : Dev nD) : W4 m ρ c (Proc.devRef .tc main_v6) = val_main_v6 (F := Ideal) (m ((c : Thread nD τ).loc main_arg1)) :=
  (W4_of_ne m ρ c main_v6 (by decide)).trans (W3_v6 m ρ c)
theorem W4_v26 (c : Dev nD) : W4 m ρ c (Proc.devRef .tc main_v26) = val_main_v26 (F := Ideal) (m ((c : Thread nD τ).loc main_arg1)) :=
  (W4_of_ne m ρ c main_v26 (by decide)).trans (W3_v26 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)
theorem W4_arg6 (c : Dev nD) : W4 m ρ c (Proc.devRef .tc main_arg6) = (m ((c : Thread nD τ).loc main_arg6)) :=
  (W4_of_ne m ρ c main_arg6 (by decide)).trans (W3_arg6 m ρ c)
theorem W4_arg7 (c : Dev nD) : W4 m ρ c (Proc.devRef .tc main_arg7) = (m ((c : Thread nD τ).loc main_arg7)) :=
  (W4_of_ne m ρ c main_arg7 (by decide)).trans (W3_arg7 m ρ c)

/-! ## Region 2: the second product; everything else kept -/

theorem W5_v43 (c : Dev nD) : W5 m ρ c (Proc.devRef .tc main_v43) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W5_arr m ρ c 2).trans ((Reg2.arr (V4 m ρ) c).trans
    ((congrArg₂ Cert.Spec.mm64 (W4_v42 m ρ c) (W4_arg4 m ρ c)).trans (Bridge.dot_v68 _ _ _ _ _).symm))
theorem W5_v5 (c : Dev nD) : W5 m ρ c (Proc.devRef .tc main_v5) = val_main_v5 (F := Ideal) (m ((c : Thread nD τ).loc main_arg1)) :=
  (W5_of_ne m ρ c main_v5 (by decide)).trans (W4_v5 m ρ c)
theorem W5_v6 (c : Dev nD) : W5 m ρ c (Proc.devRef .tc main_v6) = val_main_v6 (F := Ideal) (m ((c : Thread nD τ).loc main_arg1)) :=
  (W5_of_ne m ρ c main_v6 (by decide)).trans (W4_v6 m ρ c)
theorem W5_v26 (c : Dev nD) : W5 m ρ c (Proc.devRef .tc main_v26) = val_main_v26 (F := Ideal) (m ((c : Thread nD τ).loc main_arg1)) :=
  (W5_of_ne m ρ c main_v26 (by decide)).trans (W4_v26 m ρ c)
theorem W5_arg5 (c : Dev nD) : W5 m ρ c (Proc.devRef .tc main_arg5) = (m ((c : Thread nD τ).loc main_arg5)) :=
  (W5_of_ne m ρ c main_arg5 (by decide)).trans (W4_arg5 m ρ c)
theorem W5_arg6 (c : Dev nD) : W5 m ρ c (Proc.devRef .tc main_arg6) = (m ((c : Thread nD τ).loc main_arg6)) :=
  (W5_of_ne m ρ c main_arg6 (by decide)).trans (W4_arg6 m ρ c)
theorem W5_arg7 (c : Dev nD) : W5 m ρ c (Proc.devRef .tc main_arg7) = (m ((c : Thread nD τ).loc main_arg7)) :=
  (W5_of_ne m ρ c main_arg7 (by decide)).trans (W4_arg7 m ρ c)

end Cert.KernelIdeal.Chain

end
-- ==== Proof.Reg3.lean ====
/-
  Region 3, the second layer's bias and cut-off, ten blocks of 10000 rows. At a point t the body adds the bias row (window 1,
  a [1, 64] array, stretched over the rows) to rows 10000·t … of the aggregated features (window 0) and takes the maximum with
  zero, entry by entry; the block lands on the same rows of the result and the ten blocks tile it. So the result array ends
  holding max (a(r, q) + b(0, q), 0) at every (r, q), whatever the region finds in its arrays.
-/
import proofs.«112325_j1477468750494_1_alg».proof.Proof.Gen.KernelIdeal.Frame
import proofs.«112325_j1477468750494_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Reg3

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-! ## The body's entry -/

/-- What the body stores at (p, q): the features' (p, q) plus the bias row's (0, q), cut off below at zero. -/
theorem pay_apply (x0 : Vec Ideal S10000x64 .f32) (x1 : Vec Ideal S1x64 .f32) (i : S10000x64.Idx) :
    k3_pay1 (F := Ideal) x0 x1 i
      = max (x0 i + x1 (ix2 (n0 := 1) (n1 := 64) ⟨0, Nat.one_pos⟩ ⟨(i 1).val, (i 1).isLt⟩)) (FloatOps.ofBits (F := Ideal) .f32 0x00000000#32) := by
  unfold k3_pay1
  simp only [shapeCast_self]
  show max (x0 i + broadcastTo S10000x64 x1 broadcasts_S1x64_S10000x64 i) _ = _
  rw [broadcastTo_apply x1 broadcasts_S1x64_S10000x64 i (ix2 (n0 := 1) (n1 := 64) ⟨0, Nat.one_pos⟩ ⟨(i 1).val, (i 1).isLt⟩) (fun a => by
    match a with
    | ⟨0, _⟩ => show 0 = if (1 : Nat) = 1 then 0 else _; rw [if_pos rfl]
    | ⟨1, _⟩ => show (i 1).val = if (64 : Nat) = 1 then 0 else (i 1).val; rw [if_neg (by decide)])]
  rfl

/-! ## The blocks as parts of the arrays -/

/-- The printed index maps over the grid: the row blocks of the features and of the result move with the point, the bias stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The features' block at point t is rows 10000·t … of the features. -/
theorem xblk_apply (c : Dev nD) (t : Fin cfg3.N) (y : S10000x64.Idx) (i : S100000x64.Idx)
    (h0 : (i 0).val = t.val * 10000 + (y 0).val) (h1 : (i 1).val = (y 1).val) :
    (iblk3 V c 0 t : Vec Ideal S10000x64 .f32) y = (V c main_v56 : S100000x64.Idx → Elt Ideal .f32) i := by
  obtain ⟨e0, e1, -⟩ := idx_facts t
  unfold iblk3
  rw [View.read_apply]
  show V c main_v56 _ = V c main_v56 i
  congr 1
  funext a
  apply Fin.ext
  match a with
  | ⟨0, _⟩ => show win3_0.index t 0 * 10000 + 1 * (y 0).val = (i 0).val; rw [e0, h0]; omega
  | ⟨1, _⟩ => show win3_0.index t 1 * 64 + 1 * (y 1).val = (i 1).val; rw [e1, h1]; omega

/-- The bias row's block is the bias row. -/
theorem bblk_apply (c : Dev nD) (t : Fin cfg3.N) (y : S1x64.Idx) (i : S1x64.Idx)
    (h0 : (i 0).val = (y 0).val) (h1 : (i 1).val = (y 1).val) :
    (iblk3 V c 1 t : Vec Ideal S1x64 .f32) y = (V c main_v57 : S1x64.Idx → Elt Ideal .f32) i := by
  obtain ⟨-, -, e2, e3, -⟩ := idx_facts t
  unfold iblk3
  rw [View.read_apply]
  show V c main_v57 _ = V c main_v57 i
  congr 1
  funext a
  apply Fin.ext
  match a with
  | ⟨0, _⟩ => show win3_1.index t 0 * 1 + 1 * (y 0).val = (i 0).val; rw [e2, h0]; omega
  | ⟨1, _⟩ => show win3_1.index t 1 * 64 + 1 * (y 1).val = (i 1).val; rw [e3, h1]; omega

/-! ## What a point writes back, and the array after the region -/

/-- What point t writes back is its block of the whole biased, cut-off array. -/
theorem flushed_eq (c : Dev nD) (t : Fin cfg3.N) :
    (dat3 V c).flushed 2 t = ((cfg3.win 2).blk t).view.read (Elt Ideal) (Cert.Spec.biasRelu (V c main_v56) (V c main_v57)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨-, -, -, -, e4, e5⟩ := idx_facts t
  funext j
  show k3_pay1 (iblk3 V c 0 t) (iblk3 V c 1 t) j = Cert.Spec.biasRelu (V c main_v56) (V c main_v57) (((cfg3.win 2).blk t).view.emb j)
  refine (pay_apply (iblk3 V c 0 t) (iblk3 V c 1 t) j).trans ?_
  unfold Cert.Spec.biasRelu
  have hj0 : ((((cfg3.win 2).blk t).view.emb j) 0).val = t.val * 10000 + (j 0).val := by
    show win3_2.index t 0 * 10000 + 1 * (j 0).val = _; rw [e4]; omega
  have hj1 : ((((cfg3.win 2).blk t).view.emb j) 1).val = (j 1).val := by
    show win3_2.index t 1 * 64 + 1 * (j 1).val = _; rw [e5]; omega
  refine congrArg₂ max (congrArg₂ (· + ·) (xblk_apply V c t _ _ hj0 hj1) (bblk_apply V c t _ _ ?_ ?_)) rfl
  · rfl
  · exact hj1

/-- An index of the result is in point t's block iff its row is among the block's rows. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v58).slice (win3_2.rect t)).set ↔ _
  rw [View.set_slice_whole, Rect.mem_set_unit]
  exact Iff.rfl

/-- Every index of the result is in the block of the point its row falls in. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 10000 := ⟨⟨(i 0).val / 10000, by show _ < 10; omega⟩, rfl⟩
  obtain ⟨-, -, -, -, e4, e5⟩ := idx_facts t
  refine ⟨t, flush3_2 t, ?_⟩
  rw [mem_blk]
  intro a
  match a with
  | ⟨0, _⟩ => show win3_2.index t 0 * 10000 ≤ (i 0).val ∧ (i 0).val < win3_2.index t 0 * 10000 + 10000; rw [e4, ht]; omega
  | ⟨1, _⟩ => show win3_2.index t 1 * 64 ≤ (i 1).val ∧ (i 1).val < win3_2.index t 1 * 64 + 64; rw [e5]; omega

/-- After the region the result array holds the biased, cut-off features of what the region found in its two arrays. -/
theorem arr (c : Dev nD) : (dat3 V c).arrAt 2 cfg3.N = Cert.Spec.biasRelu (V c main_v56) (V c main_v57) :=
  (dat3 V c).arrAt_eq_of_cover 2 (Cert.Spec.biasRelu (V c main_v56) (V c main_v57)) (fun t _ => flushed_eq V c t) cover

end Cert.KernelIdeal.Reg3

end
-- ==== Proof.Reg4.lean ====
/-
  Region 4, the head's product h · Wl, ten blocks of 10000 rows. At a point t the body multiplies rows 10000·t … of the second
  layer's output (its block of window 0) by the whole of Wl (window 1, one column) into a zero accumulator: the entry (p, 0) it stores
  is the sum over k of h(10000·t + p, k) · Wl(k, 0), the narrowing of both operands to bf16 being the identity on the extended reals.
  The block lands on the same rows of the one-column result and the ten blocks tile it, so the result array ends holding the whole
  product of what the region finds in its two arrays.
-/
import proofs.«112325_j1477468750494_1_alg».proof.Proof.Gen.KernelIdeal.Frame
import proofs.«112325_j1477468750494_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Reg4

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-! ## The body's product at an entry -/

/-- The left operand's row is the entry's row. -/
theorem lhs_0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
/-- The left operand's column is the contracted index. -/
theorem lhs_1 (i : S10000x1.Idx) (q : dot_S10000x64_S64x1_S10000x1_1_0_0_1_n_n.contr.Idx) :
    (dot_S10000x64_S64x1_S10000x1_1_0_0_1_n_n.lhsIdx i q 1).val = (q ⟨0, by decide⟩).val :=
  dot_S10000x64_S64x1_S10000x1_1_0_0_1_n_n.lhsIdx_val_of_single rfl i q
/-- The right operand's row is the contracted index. -/
theorem rhs_0 (i : S10000x1.Idx) (q : dot_S10000x64_S64x1_S10000x1_1_0_0_1_n_n.contr.Idx) :
    (dot_S10000x64_S64x1_S10000x1_1_0_0_1_n_n.rhsIdx i q 0).val = (q ⟨0, by decide⟩).val :=
  dot_S10000x64_S64x1_S10000x1_1_0_0_1_n_n.rhsIdx_val_of_single rfl i q
/-- The right operand's column is the entry's column. -/
theorem rhs_1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- What the body stores at (p, q): the sum over k of the row block's (p, k) times the weights' (k, q). -/
theorem pay_apply (x0 : Vec Ideal S10000x64 .f32) (x1 : Vec Ideal S64x1 .f32) (i : S10000x1.Idx) :
    k4_pay1 (F := Ideal) x0 x1 i
      = ∑ k : Fin 64, x0 (ix2 (n0 := 10000) (n1 := 64) ⟨(i 0).val, (i 0).isLt⟩ k) * x1 (ix2 (n0 := 64) (n1 := 1) k ⟨(i 1).val, (i 1).isLt⟩) := by
  unfold k4_pay1
  simp only [shapeCast_self]
  refine (Ideal.matmul_constant_zero_apply dot_S10000x64_S64x1_S10000x1_1_0_0_1_n_n none _ _ i).trans ?_
  rw [← Equiv.sum_comp (ValueIdx.contrEquiv1 dot_S10000x64_S64x1_S10000x1_1_0_0_1_n_n 64 rfl rfl).symm]
  refine Finset.sum_congr rfl fun k _ => ?_
  have hk := ValueIdx.contrEquiv1_symm_val dot_S10000x64_S64x1_S10000x1_1_0_0_1_n_n 64 rfl rfl k
  have el : dot_S10000x64_S64x1_S10000x1_1_0_0_1_n_n.lhsIdx i ((ValueIdx.contrEquiv1 dot_S10000x64_S64x1_S10000x1_1_0_0_1_n_n 64 rfl rfl).symm k) = ix2 (n0 := 10000) (n1 := 64) ⟨(i 0).val, (i 0).isLt⟩ k := funext fun a => Fin.ext (by
    match a with
    | ⟨0, _⟩ => exact lhs_0 _ _
    | ⟨1, _⟩ => exact (lhs_1 _ _).trans hk)
  have er : dot_S10000x64_S64x1_S10000x1_1_0_0_1_n_n.rhsIdx i ((ValueIdx.contrEquiv1 dot_S10000x64_S64x1_S10000x1_1_0_0_1_n_n 64 rfl rfl).symm k) = ix2 (n0 := 64) (n1 := 1) k ⟨(i 1).val, (i 1).isLt⟩ := funext fun a => Fin.ext (by
    match a with
    | ⟨0, _⟩ => exact (rhs_0 _ _).trans hk
    | ⟨1, _⟩ => exact rhs_1 _ _)
  rw [el, er]
  rfl

/-! ## The blocks as parts of the arrays -/

/-- The printed index maps over the grid: the row blocks of the left operand and of the result move with the point, the weights stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's block at point t is rows 10000·t … of the left operand. -/
theorem xblk_apply (c : Dev nD) (t : Fin cfg4.N) (y : S10000x64.Idx) (i : S100000x64.Idx)
    (h0 : (i 0).val = t.val * 10000 + (y 0).val) (h1 : (i 1).val = (y 1).val) :
    (iblk4 V c 0 t : Vec Ideal S10000x64 .f32) y = (V c main_v58 : S100000x64.Idx → Elt Ideal .f32) i := by
  obtain ⟨e0, e1, -⟩ := idx_facts t
  unfold iblk4
  rw [View.read_apply]
  show V c main_v58 _ = V c main_v58 i
  congr 1
  funext a
  apply Fin.ext
  match a with
  | ⟨0, _⟩ => show win4_0.index t 0 * 10000 + 1 * (y 0).val = (i 0).val; rw [e0, h0]; omega
  | ⟨1, _⟩ => show win4_0.index t 1 * 64 + 1 * (y 1).val = (i 1).val; rw [e1, h1]; omega

/-- The weights' block is the weights. -/
theorem wblk_apply (c : Dev nD) (t : Fin cfg4.N) (y : S64x1.Idx) (i : S64x1.Idx)
    (h0 : (i 0).val = (y 0).val) (h1 : (i 1).val = (y 1).val) :
    (iblk4 V c 1 t : Vec Ideal S64x1 .f32) y = (V c main_arg6 : S64x1.Idx → Elt Ideal .f32) i := by
  obtain ⟨-, -, e2, e3, -⟩ := idx_facts t
  unfold iblk4
  rw [View.read_apply]
  show V c main_arg6 _ = V c main_arg6 i
  congr 1
  funext a
  apply Fin.ext
  match a with
  | ⟨0, _⟩ => show win4_1.index t 0 * 64 + 1 * (y 0).val = (i 0).val; rw [e2, h0]; omega
  | ⟨1, _⟩ => show win4_1.index t 1 * 1 + 1 * (y 1).val = (i 1).val; rw [e3, h1]; omega

/-! ## What a point writes back, and the array after the region -/

/-- What point t writes back is its block of the whole product. -/
theorem flushed_eq (c : Dev nD) (t : Fin cfg4.N) :
    (dat4 V c).flushed 2 t = ((cfg4.win 2).blk t).view.read (Elt Ideal) (Cert.Spec.mm1 (V c main_v58) (V c main_arg6)) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x1) hz]
  obtain ⟨-, -, -, -, e4, e5⟩ := idx_facts t
  funext j
  show k4_pay1 (iblk4 V c 0 t) (iblk4 V c 1 t) j = Cert.Spec.mm1 (V c main_v58) (V c main_arg6) (((cfg4.win 2).blk t).view.emb j)
  refine (pay_apply (iblk4 V c 0 t) (iblk4 V c 1 t) j).trans ?_
  unfold Cert.Spec.mm1
  have hj0 : ((((cfg4.win 2).blk t).view.emb j) 0).val = t.val * 10000 + (j 0).val := by
    show win4_2.index t 0 * 10000 + 1 * (j 0).val = _; rw [e4]; omega
  have hj1 : ((((cfg4.win 2).blk t).view.emb j) 1).val = (j 1).val := by
    show win4_2.index t 1 * 1 + 1 * (j 1).val = _; rw [e5]; omega
  refine Finset.sum_congr rfl fun k _ => ?_
  refine congrArg₂ (· * ·) (xblk_apply V c t _ _ ?_ ?_) (wblk_apply V c t _ _ ?_ ?_)
  · exact hj0
  · rfl
  · rfl
  · exact hj1

/-- An index of the result is in point t's block iff its row is among the block's rows. -/
theorem mem_blk (t : Fin cfg4.N) (i : S100000x1.Idx) :
    i ∈ ((cfg4.win 2).blk t).view.set ↔ ∀ a : Fin 2, win4_2.index t a * S10000x1.size a ≤ (i a).val ∧ (i a).val < win4_2.index t a * S10000x1.size a + S10000x1.size a := by
  show i ∈ ((View.whole main_v59).slice (win4_2.rect t)).set ↔ _
  rw [View.set_slice_whole, Rect.mem_set_unit]
  exact Iff.rfl

/-- Every index of the result is in the block of the point its row falls in. -/
theorem cover (i : S100000x1.Idx) : ∃ t : Fin cfg4.N, (cfg4.win 2).flush t = true ∧ i ∈ ((cfg4.win 2).blk t).view.set := by
  have hi0 : (i 0).val < 100000 := (i 0).isLt
  have hi1 : (i 1).val < 1 := (i 1).isLt
  obtain ⟨t, ht⟩ : ∃ t : Fin cfg4.N, t.val = (i 0).val / 10000 := ⟨⟨(i 0).val / 10000, by show _ < 10; omega⟩, rfl⟩
  obtain ⟨-, -, -, -, e4, e5⟩ := idx_facts t
  refine ⟨t, flush4_2 t, ?_⟩
  rw [mem_blk]
  intro a
  match a with
  | ⟨0, _⟩ => show win4_2.index t 0 * 10000 ≤ (i 0).val ∧ (i 0).val < win4_2.index t 0 * 10000 + 10000; rw [e4, ht]; omega
  | ⟨1, _⟩ => show win4_2.index t 1 * 1 ≤ (i 1).val ∧ (i 1).val < win4_2.index t 1 * 1 + 1; rw [e5]; omega

/-- After the region the result array holds the whole product of what the region found in its two arrays. -/
theorem arr (c : Dev nD) : (dat4 V c).arrAt 2 cfg4.N = Cert.Spec.mm1 (V c main_v58) (V c main_arg6) :=
  (dat4 V c).arrAt_eq_of_cover 2 (Cert.Spec.mm1 (V c main_v58) (V c main_arg6)) (fun t _ => flushed_eq V c t) cover

end Cert.KernelIdeal.Reg4

end
-- ==== Proof.Reg5.lean ====
/-
  Region 5, the head's bias, ten blocks of 10000 rows of a one-column array. At a point t the body adds the bias (window 1, a
  [1, 1] array, stretched over the rows) to rows 10000·t … of the head's product (window 0), entry by entry, and cuts nothing off;
  the block lands on the same rows of the result and the ten blocks tile it. So the result array ends holding a(r, 0) + b(0, 0)
  at every row r, whatever the region finds in its arrays.
-/
import proofs.«112325_j1477468750494_1_alg».proof.Proof.Gen.KernelIdeal.Frame
import proofs.«112325_j1477468750494_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Reg5

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-! ## The body's entry -/

/-- What the body stores at (p, 0): the product's (p, 0) plus the bias' (0, 0). -/
theorem pay_apply (x0 : Vec Ideal S10000x1 .f32) (x1 : Vec Ideal S1x1 .f32) (i : S10000x1.Idx) :
    k5_pay1 (F := Ideal) x0 x1 i = x0 i + x1 (ix2 (n0 := 1) (n1 := 1) ⟨0, Nat.one_pos⟩ ⟨0, Nat.one_pos⟩) := by
  unfold k5_pay1
  simp only [shapeCast_self]
  show x0 i + broadcastTo S10000x1 x1 broadcasts_S1x1_S10000x1 i = _
  rw [broadcastTo_apply x1 broadcasts_S1x1_S10000x1 i (ix2 (n0 := 1) (n1 := 1) ⟨0, Nat.one_pos⟩ ⟨0, Nat.one_pos⟩) (fun a => by
    match a with
    | ⟨0, _⟩ => show 0 = if (1 : Nat) = 1 then 0 else _; rw [if_pos rfl]
    | ⟨1, _⟩ => show 0 = if (1 : Nat) = 1 then 0 else _; rw [if_pos rfl])]

/-! ## The blocks as parts of the arrays -/

/-- The printed index maps over the grid: the row blocks of the product and of the result move with the point, the bias stays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The product's block at point t is rows 10000·t … of the product. -/
theorem xblk_apply (c : Dev nD) (t : Fin cfg5.N) (y : S10000x1.Idx) (i : S100000x1.Idx)
    (h0 : (i 0).val = t.val * 10000 + (y 0).val) (h1 : (i 1).val = (y 1).val) :
    (iblk5 V c 0 t : Vec Ideal S10000x1 .f32) y = (V c main_v59 : S100000x1.Idx → Elt Ideal .f32) i := by
  obtain ⟨e0, e1, -⟩ := idx_facts t
  unfold iblk5
  rw [View.read_apply]
  show V c main_v59 _ = V c main_v59 i
  congr 1
  funext a
  apply Fin.ext
  match a with
  | ⟨0, _⟩ => show win5_0.index t 0 * 10000 + 1 * (y 0).val = (i 0).val; rw [e0, h0]; omega
  | ⟨1, _⟩ => show win5_0.index t 1 * 1 + 1 * (y 1).val = (i 1).val; rw [e1, h1]; omega

/-- The bias' block is the bias. -/
theorem bblk_apply (c : Dev nD) (t : Fin cfg5.N) (y : S1x1.Idx) (i : S1x1.Idx)
    (h0 : (i 0).val = (y 0).val) (h1 : (i 1).val = (y 1).val) :
    (iblk5 V c 1 t : Vec Ideal S1x1 .f32) y = (V c main_v60 : S1x1.Idx → Elt Ideal .f32) i := by
  obtain ⟨-, -, e2, e3, -⟩ := idx_facts t
  unfold iblk5
  rw [View.read_apply]
  show V c main_v60 _ = V c main_v60 i
  congr 1
  funext a
  apply Fin.ext
  match a with
  | ⟨0, _⟩ => show win5_1.index t 0 * 1 + 1 * (y 0).val = (i 0).val; rw [e2, h0]; omega
  | ⟨1, _⟩ => show win5_1.index t 1 * 1 + 1 * (y 1).val = (i 1).val; rw [e3, h1]; omega

/-! ## What a point writes back, and the array after the region -/

/-- What point t writes back is its block of the whole biased column. -/
theorem flushed_eq (c : Dev nD) (t : Fin cfg5.N) :
    (dat5 V c).flushed 2 t = ((cfg5.win 2).blk t).view.read (Elt Ideal) (Cert.Spec.biasAdd (V c main_v59) (V c main_v60)) := by
  show (cfg5.win 2).cut (grid5.coords t) ((dat5 V c).after 2 t) = _
  rw [after5_2]
  unfold out5_2
  rw [View.canon_unit_zero hz]
  simp only [View.ld_unit_zero (S := S10000x1) hz, View.ld_unit_zero (S := S1x1) hz]
  obtain ⟨-, -, -, -, e4, e5⟩ := idx_facts t
  funext j
  show k5_pay1 (iblk5 V c 0 t) (iblk5 V c 1 t) j = Cert.Spec.biasAdd (V c main_v59) (V c main_v60) (((cfg5.win 2).blk t).view.emb j)
  refine (pay_apply (iblk5 V c 0 t) (iblk5 V c 1 t) j).trans ?_
  unfold Cert.Spec.biasAdd
  have hj0 : ((((cfg5.win 2).blk t).view.emb j) 0).val = t.val * 10000 + (j 0).val := by
    show win5_2.index t 0 * 10000 + 1 * (j 0).val = _; rw [e4]; omega
  have hj1 : ((((cfg5.win 2).blk t).view.emb j) 1).val = (j 1).val := by
    show win5_2.index t 1 * 1 + 1 * (j 1).val = _; rw [e5]; omega
  refine congrArg₂ (· + ·) (xblk_apply V c t _ _ hj0 hj1) (bblk_apply V c t _ _ ?_ ?_)
  · rfl
  · rfl

/-- An index of the result is in point t's block iff its row is among the block's rows. -/
theorem mem_blk (t : Fin cfg5.N) (i : S100000x1.Idx) :
    i ∈ ((cfg5.win 2).blk t).view.set ↔ ∀ a : Fin 2, win5_2.index t a * S10000x1.size a ≤ (i a).val ∧ (i a).val < win5_2.index t a * S10000x1.size a + S10000x1.size a := by
  show i ∈ ((View.whole main_v61).slice (win5_2.rect t)).set ↔ _
  rw [View.set_slice_whole, Rect.mem_set_unit]
  exact Iff.rfl

/-- Every index of the result is in the block of the point its row falls in. -/
theorem cover (i : S100000x1.Idx) : ∃ t : Fin cfg5.N, (cfg5.win 2).flush t = true ∧ i ∈ ((cfg5.win 2).blk t).view.set := by
  have hi0 : (i 0).val < 100000 := (i 0).isLt
  have hi1 : (i 1).val < 1 := (i 1).isLt
  obtain ⟨t, ht⟩ : ∃ t : Fin cfg5.N, t.val = (i 0).val / 10000 := ⟨⟨(i 0).val / 10000, by show _ < 10; omega⟩, rfl⟩
  obtain ⟨-, -, -, -, e4, e5⟩ := idx_facts t
  refine ⟨t, flush5_2 t, ?_⟩
  rw [mem_blk]
  intro a
  match a with
  | ⟨0, _⟩ => show win5_2.index t 0 * 10000 ≤ (i 0).val ∧ (i 0).val < win5_2.index t 0 * 10000 + 10000; rw [e4, ht]; omega
  | ⟨1, _⟩ => show win5_2.index t 1 * 1 ≤ (i 1).val ∧ (i 1).val < win5_2.index t 1 * 1 + 1; rw [e5]; omega

/-- After the region the result array holds the biased column of what the region found in its two arrays. -/
theorem arr (c : Dev nD) : (dat5 V c).arrAt 2 cfg5.N = Cert.Spec.biasAdd (V c main_v59) (V c main_v60) :=
  (dat5 V c).arrAt_eq_of_cover 2 (Cert.Spec.biasAdd (V c main_v59) (V c main_v60)) (fun t _ => flushed_eq V c t) cover

end Cert.KernelIdeal.Reg5

end
-- ==== Proof.Chain2.lean ====
/-
  The kernel's run, boundary by boundary, second half. The host stretch after region 2 aggregates the second product with the
  same edge lists and normalisation (kept from before region 0; the reference computes them a second time, to the same values)
  and reshapes the second bias to a row; region 3 adds it and cuts off at zero (Reg3), the reference's second add and relu;
  region 4 multiplies by Wl (Reg4), the reference's last dot_general; the head's bias is reshaped to [1, 1] and region 5 adds it
  (Reg5), the reference's last add; the final reshape to one axis is the reference's. So the result buffer ends holding the
  reference's last stage of the arguments.
-/
import proofs.«112325_j1477468750494_1_alg».proof.Proof.Chain1
import proofs.«112325_j1477468750494_1_alg».proof.Proof.Reg3
import proofs.«112325_j1477468750494_1_alg».proof.Proof.Reg4
import proofs.«112325_j1477468750494_1_alg».proof.Proof.Reg5

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.ReferenceIdeal.Read Cert.ReferenceIdeal

variable (m : (ℓ : Loc nD τ sig) → Buf (Elt Ideal) ℓ) (ρ : Dev nD → PrngReg)

/-! ## The host stretch after region 2: the second aggregation; the second bias as a row -/

/-- The aggregated features of the second layer. -/
theorem W6_v56 (c : Dev nD) : W6 m ρ c (Proc.devRef .tc main_v56) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v56) = _
  after_results_simp
  rw [W5_v43 m ρ c, W5_v5 m ρ c, W5_v6 m ρ c, W5_v26 m ρ c]
  rfl
/-- The second bias, reshaped to a row. -/
theorem W6_v57 (c : Dev nD) : W6 m ρ c (Proc.devRef .tc main_v57) = shapeCast S1x64 (m ((c : Thread nD τ).loc main_arg5)) shapeCasts_S64_S1x64 := by
  show StableHlo.after hostOps3 (W5 m ρ c) (Proc.devRef .tc main_v57) = _
  after_results_simp
  rw [W5_arg5 m ρ c]
  rfl
theorem W6_arg6 (c : Dev nD) : W6 m ρ c (Proc.devRef .tc main_arg6) = (m ((c : Thread nD τ).loc main_arg6)) := by
  show StableHlo.after hostOps3 (W5 m ρ c) (Proc.devRef .tc main_arg6) = _
  after_results_simp
  exact W5_arg6 m ρ c
theorem W6_arg7 (c : Dev nD) : W6 m ρ c (Proc.devRef .tc main_arg7) = (m ((c : Thread nD τ).loc main_arg7)) := by
  show StableHlo.after hostOps3 (W5 m ρ c) (Proc.devRef .tc main_arg7) = _
  after_results_simp
  exact W5_arg7 m ρ c

/-! ## Region 3: the second layer's bias and cut-off -/

theorem W7_v58 (c : Dev nD) : W7 m ρ c (Proc.devRef .tc main_v58) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 2).trans ((Reg3.arr (V6 m ρ) c).trans
    ((congrArg₂ Cert.Spec.biasRelu (W6_v56 m ρ c) (W6_v57 m ρ c)).trans (Bridge.relu_v85 _ _ _ _ _ _ _).symm))
theorem W7_arg6 (c : Dev nD) : W7 m ρ c (Proc.devRef .tc main_arg6) = (m ((c : Thread nD τ).loc main_arg6)) :=
  (W7_of_ne m ρ c main_arg6 (by decide)).trans (W6_arg6 m ρ c)
theorem W7_arg7 (c : Dev nD) : W7 m ρ c (Proc.devRef .tc main_arg7) = (m ((c : Thread nD τ).loc main_arg7)) :=
  (W7_of_ne m ρ c main_arg7 (by decide)).trans (W6_arg7 m ρ c)

/-! ## Region 4: the head's product -/

theorem W8_v59 (c : Dev nD) : W8 m ρ c (Proc.devRef .tc main_v59) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_arr m ρ c 2).trans ((Reg4.arr (V7 m ρ) c).trans
    ((congrArg₂ Cert.Spec.mm1 (W7_v58 m ρ c) (W7_arg6 m ρ c)).trans (Bridge.dot_v86 _ _ _ _ _ _ _).symm))
theorem W8_arg7 (c : Dev nD) : W8 m ρ c (Proc.devRef .tc main_arg7) = (m ((c : Thread nD τ).loc main_arg7)) :=
  (W8_of_ne m ρ c main_arg7 (by decide)).trans (W7_arg7 m ρ c)

/-! ## The head's bias reshaped to [1, 1]; region 5 adds it -/

theorem W9_v60 (c : Dev nD) : W9 m ρ c (Proc.devRef .tc main_v60) = shapeCast S1x1 (m ((c : Thread nD τ).loc main_arg7)) shapeCasts_S1_S1x1 := by
  show StableHlo.after hostOps5 (W8 m ρ c) (Proc.devRef .tc main_v60) = _
  after_results_simp
  rw [W8_arg7 m ρ c]
  rfl
theorem W9_v59 (c : Dev nD) : W9 m ρ c (Proc.devRef .tc main_v59) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v59) = _
  after_results_simp
  exact W8_v59 m ρ c

theorem W10_v61 (c : Dev nD) : W10 m ρ c (Proc.devRef .tc main_v61) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W10_arr m ρ c 2).trans ((Reg5.arr (V9 m ρ) c).trans
    ((congrArg₂ Cert.Spec.biasAdd (W9_v59 m ρ c) (W9_v60 m ρ c)).trans (Bridge.bias_v89 _ _ _ _ _ _ _ _ _).symm))

/-! ## The final reshape: the result buffer at the last boundary -/

/-- The result buffer ends holding the reference's last stage of the arguments. -/
theorem W11_v62 (c : Dev nD) : W11 m ρ c (Proc.devRef .tc main_v62) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps6 (W10 m ρ c) (Proc.devRef .tc main_v62) = _
  after_results_simp
  rw [W10_v61 m ρ c]
  rfl

end Cert.KernelIdeal.Chain

end
-- ==== Proof.lean ====
/-
  The certificate of a two-layer graph convolution with a linear head: six kernel regions (three products, three bias
  additions, two of them followed by a cut-off at zero) among host stretches that build the edge lists with self loops, the
  normalisation, and the gather–scale–scatter-add aggregation, against a reference that does everything on the host.
  On the extended reals both programs compute, stage by stage, the same functions of the arguments: the host stretches are the
  same operations in the same order on both sides; each kernel product, a block of rows at a time into a zero accumulator with
  operands narrowed to bf16 (the identity on the extended reals), is the reference's dot_general, the same sum over the
  contracted axis; each bias row stretched over the rows and the maximum with zero are the reference's broadcast add and relu.
  The frames of the two kernel programs are the generated ones; the reference's frame is its generated run with the result
  dropped; the idealization rewrote nothing, so there is nothing to preserve. No law that needs finite inputs is used.
-/
import proofs.«112325_j1477468750494_1_alg».proof.Defs
import proofs.«112325_j1477468750494_1_alg».proof.Proof.Gen.Kernel
import proofs.«112325_j1477468750494_1_alg».proof.Proof.Gen.Kernel.Skeleton
import proofs.«112325_j1477468750494_1_alg».proof.Proof.Gen.Kernel.Launch
import proofs.«112325_j1477468750494_1_alg».proof.Proof.Gen.Kernel.Points
import proofs.«112325_j1477468750494_1_alg».proof.Proof.Gen.Kernel.Frame
import proofs.«112325_j1477468750494_1_alg».proof.Proof.Gen.KernelIdeal
import proofs.«112325_j1477468750494_1_alg».proof.Proof.Gen.KernelIdeal.Skeleton
import proofs.«112325_j1477468750494_1_alg».proof.Proof.Gen.KernelIdeal.Launch
import proofs.«112325_j1477468750494_1_alg».proof.Proof.Gen.KernelIdeal.Points
import proofs.«112325_j1477468750494_1_alg».proof.Proof.Gen.KernelIdeal.Frame
import proofs.«112325_j1477468750494_1_alg».proof.Proof.Gen.ReferenceIdeal
import proofs.«112325_j1477468750494_1_alg».proof.Proof.Gen.Pre_finite_inputs
import proofs.«112325_j1477468750494_1_alg».proof.Proof.RefSide
import proofs.«112325_j1477468750494_1_alg».proof.Proof.KRun
import proofs.«112325_j1477468750494_1_alg».proof.Proof.Chain2
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result at the reference's last stage of the arguments: the kernel's by its run read back at
    the last boundary and the chain of boundaries, the reference's by its run, the arguments of the two memories agreeing. -/
theorem algebraic : Cert.algebraic_KernelIdeal_ReferenceIdeal := by
  intro m ρ m' ρ' _ hagree
  refine ⟨fun c => Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Chain.W11_v62 m ρ c), (h c).2⟩) (Cert.KernelIdeal.Gen.run_last m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v90_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
